-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x165 : Shape := ⟨3, ![32, 16, 165]⟩
abbrev S87808x165 : Shape := ⟨2, ![87808, 165]⟩
abbrev S87808 : Shape := ⟨1, ![87808]⟩
abbrev S_ : Shape := ⟨0, ![]⟩

class Facts : Prop where
  bcast_S_S32x16x165 : S_.BroadcastsInDim S32x16x165 (![] : Fin 0 → Fin S32x16x165.rank)
  reducesTo_S32x16x165_S_d0_1_2 : S32x16x165.ReducesTo [0, 1, 2] S_
  h_S_ : 0 < S_.numel
  bcast_S_S87808x165 : S_.BroadcastsInDim S87808x165 (![] : Fin 0 → Fin S87808x165.rank)
  reducesTo_S87808x165_S_d0_1 : S87808x165.ReducesTo [0, 1] S_
  bcast_S_S87808 : S_.BroadcastsInDim S87808 (![] : Fin 0 → Fin S87808.rank)
  reducesTo_S87808_S_d0 : S87808.ReducesTo [0] S_

variable [Facts]

def fn {F : FTy → Type} [FloatOps F] (main_arg0 : FVec F S32x16x165 .f32) (main_arg1 : FVec F S87808x165 .f32) (main_arg2 : FVec F S87808 .f32) : IVec S_ 1 :=
  let main_v0 : FVec F S32x16x165 .f32 := Host.absf main_arg0
  let main_cst : FVec F S_ .f32 := constant S_ .f32 0x7F800000#32
  let main_v1 : FVec F S32x16x165 .f32 := broadcastInDim S32x16x165 ![] bcast_S_S32x16x165 main_cst
  let main_v2 : IVec S32x16x165 1 := cmpf .olt main_v0 main_v1
  let main_c : IVec S_ 1 := constantI S_ 1 1#1
  let main_v3 : IVec S_ 1 := (fun x v => Host.reduce IntOp.andi x v reducesTo_S32x16x165_S_d0_1_2 h_S_) main_v2 main_c
  let main_v4 : FVec F S87808x165 .f32 := Host.absf main_arg1
  let main_cst_0 : FVec F S_ .f32 := constant S_ .f32 0x7F800000#32
  let main_v5 : FVec F S87808x165 .f32 := broadcastInDim S87808x165 ![] bcast_S_S87808x165 main_cst_0
  let main_v6 : IVec S87808x165 1 := cmpf .olt main_v4 main_v5
  let main_c_1 : IVec S_ 1 := constantI S_ 1 1#1
  let main_v7 : IVec S_ 1 := (fun x v => Host.reduce IntOp.andi x v reducesTo_S87808x165_S_d0_1 h_S_) main_v6 main_c_1
  let main_v8 : IVec S_ 1 := andi main_v3 main_v7
  let main_v9 : FVec F S87808 .f32 := Host.absf main_arg2
  let main_cst_2 : FVec F S_ .f32 := constant S_ .f32 0x7F800000#32
  let main_v10 : FVec F S87808 .f32 := broadcastInDim S87808 ![] bcast_S_S87808 main_cst_2
  let main_v11 : IVec S87808 1 := cmpf .olt main_v9 main_v10
  let main_c_3 : IVec S_ 1 := constantI S_ 1 1#1
  let main_v12 : IVec S_ 1 := (fun x v => Host.reduce IntOp.andi x v reducesTo_S87808_S_d0 h_S_) main_v11 main_c_3
  let main_v13 : IVec S_ 1 := andi main_v8 main_v12
  main_v13
-- ==== Kernel.lean ====
abbrev S32x16x165 : Shape := ⟨3, ![32, 16, 165]⟩
abbrev S87808x165 : Shape := ⟨2, ![87808, 165]⟩
abbrev S87808 : Shape := ⟨1, ![87808]⟩
abbrev S512x165 : Shape := ⟨2, ![512, 165]⟩
abbrev S1x87808 : Shape := ⟨2, ![1, 87808]⟩
abbrev S256x165 : Shape := ⟨2, ![256, 165]⟩
abbrev S6272x165 : Shape := ⟨2, ![6272, 165]⟩
abbrev S1x6272 : Shape := ⟨2, ![1, 6272]⟩
abbrev S256x6272 : Shape := ⟨2, ![256, 6272]⟩

abbrev nBuf : Space → Nat
  | .hbm => 9
  | .vmem => 9
  | .smem => 0
  | _ => 0

abbrev bufTy : (tb : Table) → Fin (tcTables nBuf tb) → BufTy
  | .hbm, ⟨0, _⟩ => ⟨S32x16x165, .f32⟩
  | .hbm, ⟨1, _⟩ => ⟨S87808x165, .f32⟩
  | .hbm, ⟨2, _⟩ => ⟨S87808, .f32⟩
  | .hbm, ⟨3, _⟩ => ⟨S512x165, .f32⟩
  | .hbm, ⟨4, _⟩ => ⟨S512x165, .bf16⟩
  | .hbm, ⟨5, _⟩ => ⟨S87808x165, .bf16⟩
  | .hbm, ⟨6, _⟩ => ⟨S1x87808, .f32⟩
  | .hbm, ⟨7, _⟩ => ⟨S512x165, .f32⟩
  | .hbm, ⟨8, _⟩ => ⟨S32x16x165, .f32⟩
  | .local _ .vmem, ⟨0, _⟩ => ⟨S256x165, .bf16⟩
  | .local _ .vmem, ⟨1, _⟩ => ⟨S256x165, .bf16⟩
  | .local _ .vmem, ⟨2, _⟩ => ⟨S6272x165, .bf16⟩
  | .local _ .vmem, ⟨3, _⟩ => ⟨S6272x165, .bf16⟩
  | .local _ .vmem, ⟨4, _⟩ => ⟨S1x6272, .f32⟩
  | .local _ .vmem, ⟨5, _⟩ => ⟨S1x6272, .f32⟩
  | .local _ .vmem, ⟨6, _⟩ => ⟨S256x165, .f32⟩
  | .local _ .vmem, ⟨7, _⟩ => ⟨S256x165, .f32⟩
  | .local _ .vmem, ⟨8, _⟩ => ⟨S256x165, .f32⟩
  | _, _ => ⟨S32x16x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 14], ![false, false]⟩

def k0_cond2 (i : grid0.Coords) : BitVec 1 :=
  let arg1 : BitVec 32 := BitVec.ofNat 32 (i 1).val
  let c13_i32 : BitVec 32 := 13#32
  let v21 : BitVec 1 := Scalar.cmpi .eq arg1 c13_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x165 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6272x165 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x6272 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x165 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32x16x165_S512x165 : S32x16x165.ShapeCasts S512x165
  bitsLt_bf16_f32 : FTy.bits .bf16 < FTy.bits .f32
  shapeCasts_S87808_S1x87808 : S87808.ShapeCasts S1x87808
  inb_S256x165_S256x165_0_0 : ∀ a, (![0, 0] : Fin 2 → Nat) a + S256x165.size a ≤ S256x165.size a
  h_S256x165 : 0 < S256x165.numel
  shapeCasts_S256x165_S256x165 : S256x165.ShapeCasts S256x165
  inb_S6272x165_S6272x165_0_0 : ∀ a, (![0, 0] : Fin 2 → Nat) a + S6272x165.size a ≤ S6272x165.size a
  h_S6272x165 : 0 < S6272x165.numel
  shapeCasts_S6272x165_S6272x165 : S6272x165.ShapeCasts S6272x165
  inb_S1x6272_S1x6272_0_0 : ∀ a, (![0, 0] : Fin 2 → Nat) a + S1x6272.size a ≤ S1x6272.size a
  h_S1x6272 : 0 < S1x6272.numel
  shapeCasts_S1x6272_S1x6272 : S1x6272.ShapeCasts S1x6272
  broadcasts_S1x6272_S256x6272 : S1x6272.Broadcasts S256x6272
  shapeCasts_S512x165_S32x16x165 : S512x165.ShapeCasts S32x16x165
  dot_S256x165_S6272x165_S256x6272_1_1_0_0_n_n_wf : DotDims.WF S256x165 S6272x165 S256x6272 [1] [1] [0] [0] [] []
  dot_S256x6272_S6272x165_S256x165_1_0_0_1_n_n_wf : DotDims.WF S256x6272 S6272x165 S256x165 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x165.size a ≤ S512x165.size a
  hwx0_0 : ∀ i : grid0.Coords, EltTy.bits .bf16 = 32 ∨ (Rect.block (s := S512x165) S256x165.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6272x165.size a ≤ S87808x165.size a
  hwx0_1 : ∀ i : grid0.Coords, EltTy.bits .bf16 = 32 ∨ (Rect.block (s := S87808x165) S6272x165.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6272.size a ≤ S1x87808.size a
  hwx0_2 : ∀ i : grid0.Coords, EltTy.bits .f32 = 32 ∨ (Rect.block (s := S1x87808) S1x6272.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x165.size a ≤ S512x165.size a
  hwx0_3 : ∀ i : grid0.Coords, EltTy.bits .f32 = 32 ∨ (Rect.block (s := S512x165) S256x165.size (cc0_transform_3 i) (hinb0_3 i)).WholeWords (EltTy.packing .f32)

variable [Facts₀]

def dot_S256x165_S6272x165_S256x6272_1_1_0_0_n_n : DotDims S256x165 S6272x165 S256x6272 where
  lhsContracting := [1]
  rhsContracting := [1]
  lhsNonContracting := [0]
  rhsNonContracting := [0]
  lhsBatch := []
  rhsBatch := []
  wf := dot_S256x165_S6272x165_S256x6272_1_1_0_0_n_n_wf
def dot_S256x6272_S6272x165_S256x165_1_0_0_1_n_n : DotDims S256x6272 S6272x165 S256x165 where
  lhsContracting := [1]
  rhsContracting := [0]
  lhsNonContracting := [0]
  rhsNonContracting := [1]
  lhsBatch := []
  rhsBatch := []
  wf := dot_S256x6272_S6272x165_S256x165_1_0_0_1_n_n_wf

abbrev win0_0 : Pipeline.Window sig grid0 :=
  Pipeline.Window.ofSpec (Memref.whole main_v1) S256x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S6272x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x6272.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x165.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x16x165 : Shape := ⟨3, ![32, 16, 165]⟩
abbrev S87808x165 : Shape := ⟨2, ![87808, 165]⟩
abbrev S87808 : Shape := ⟨1, ![87808]⟩
abbrev S32x16x87808 : Shape := ⟨3, ![32, 16, 87808]⟩
abbrev S_ : Shape := ⟨0, ![]⟩
abbrev S1x1x87808 : Shape := ⟨3, ![1, 1, 87808]⟩

abbrev nBuf : Space → Nat
  | .hbm => 11
  | .vmem => 0
  | .smem => 0
  | _ => 0

abbrev bufTy : (tb : Table) → Fin (tcTables nBuf tb) → BufTy
  | .hbm, ⟨0, _⟩ => ⟨S32x16x165, .f32⟩
  | .hbm, ⟨1, _⟩ => ⟨S87808x165, .f32⟩
  | .hbm, ⟨2, _⟩ => ⟨S87808, .f32⟩
  | .hbm, ⟨3, _⟩ => ⟨S32x16x87808, .f32⟩
  | .hbm, ⟨4, _⟩ => ⟨S_, .f32⟩
  | .hbm, ⟨5, _⟩ => ⟨S32x16x87808, .f32⟩
  | .hbm, ⟨6, _⟩ => ⟨S32x16x87808, .f32⟩
  | .hbm, ⟨7, _⟩ => ⟨S1x1x87808, .f32⟩
  | .hbm, ⟨8, _⟩ => ⟨S32x16x87808, .f32⟩
  | .hbm, ⟨9, _⟩ => ⟨S32x16x87808, .f32⟩
  | .hbm, ⟨10, _⟩ => ⟨S32x16x165, .f32⟩
  | _, _ => ⟨S32x16x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S32x16x87808 : S_.BroadcastsInDim S32x16x87808 (![] : Fin 0 → Fin S32x16x87808.rank)
  bcast_S87808_S1x1x87808_2 : S87808.BroadcastsInDim S1x1x87808 (![2] : Fin 1 → Fin S1x1x87808.rank)
  bcast_S1x1x87808_S32x16x87808_0_1_2 : S1x1x87808.BroadcastsInDim S32x16x87808 (![0, 1, 2] : Fin 3 → Fin S32x16x87808.rank)
  dot_S32x16x165_S87808x165_S32x16x87808_2_1_01_0_n_n_wf : DotDims.WF S32x16x165 S87808x165 S32x16x87808 [2] [1] [0, 1] [0] [] []
  dot_S32x16x87808_S87808x165_S32x16x165_2_0_01_1_n_n_wf : DotDims.WF S32x16x87808 S87808x165 S32x16x165 [2] [0] [0, 1] [1] [] []

variable [Facts₀]

def dot_S32x16x165_S87808x165_S32x16x87808_2_1_01_0_n_n : DotDims S32x16x165 S87808x165 S32x16x87808 where
  lhsContracting := [2]
  rhsContracting := [1]
  lhsNonContracting := [0, 1]
  rhsNonContracting := [0]
  lhsBatch := []
  rhsBatch := []
  wf := dot_S32x16x165_S87808x165_S32x16x87808_2_1_01_0_n_n_wf
def dot_S32x16x87808_S87808x165_S32x16x165_2_0_01_1_n_n : DotDims S32x16x87808 S87808x165 S32x16x165 where
  lhsContracting := [2]
  rhsContracting := [0]
  lhsNonContracting := [0, 1]
  rhsNonContracting := [1]
  lhsBatch := []
  rhsBatch := []
  wf := dot_S32x16x87808_S87808x165_S32x16x165_2_0_01_1_n_n_wf

class Facts : Prop extends Facts₀ where

variable [Facts]
-- ==== Proof.Spec.lean ====
/-
  The mathematics both programs compute, over the extended reals.

  A row of 165 coefficients is synthesised on the 87808 samples of a grid (the signal of row `M` at sample `g`
  is the inner product of the row with the basis row `g`), the negative part of the signal is dropped, each
  sample is weighted, and the weighted signal is projected back on the basis: entry `d` of the result is the sum,
  over the samples, of `(max (signal M g) 0 * weight g) * basis g d`.

  One side takes the sum over all samples at once; the other takes it tile by tile, 6272 samples at a time,
  adding each tile's sum to what the earlier tiles left. Addition of extended reals is commutative and associative
  (no cancellation is used, so the infinities need no care): the sum over the first `6272 * (n + 1)` samples is the
  sum over the first `6272 * n` plus the sum over tile `n`, and fourteen tiles are the whole grid.
-/
import Idealize.ShloMosaic.PureOps.Ideal
import Idealize.ShloMosaic.Lib.ValueIdx
import Mathlib.Algebra.BigOperators.Fin
import Mathlib.Algebra.BigOperators.Group.Finset.Basic

noncomputable section

namespace Cert.GridProjection

open Idealize.ShloMosaic Idealize.ShloMosaic.ValueIdx

/-- The coefficient rows: 512 rows of 165. -/
abbrev Rows : Shape := ⟨2, ![512, 165]⟩
/-- The basis: one row of 165 per grid sample. -/
abbrev Basis : Shape := ⟨2, ![87808, 165]⟩
/-- The quadrature weights, one per grid sample, as a single row. -/
abbrev Weights : Shape := ⟨2, ![1, 87808]⟩

variable (X : Rows.Idx → EReal) (D : Basis.Idx → EReal) (Q : Weights.Idx → EReal)

/-- The signal of coefficient row `M` at grid sample `g`. -/
def signal (M : Fin 512) (g : Fin 87808) : EReal := ∑ e : Fin 165, X (ix2 M e) * D (ix2 g e)

/-- What grid sample `g` contributes to entry `(M, d)` of the result. -/
def sample (M : Fin 512) (d : Fin 165) (g : Fin 87808) : EReal :=
  (max (signal X D M g) 0 * Q (ix2 (0 : Fin 1) g)) * D (ix2 g d)

/-- The same with the sample a natural number, zero beyond the grid. -/
def sampleN (M : Fin 512) (d : Fin 165) (g : ℕ) : EReal :=
  if h : g < 87808 then sample X D Q M d ⟨g, h⟩ else 0

/-- The contributions of the first `n` tiles of 6272 samples. -/
def upTo (M : Fin 512) (d : Fin 165) (n : ℕ) : EReal :=
  ∑ g ∈ Finset.range (6272 * n), sampleN X D Q M d g

/-- The whole projection: every sample's contribution. -/
def total (M : Fin 512) (d : Fin 165) : EReal := ∑ g : Fin 87808, sample X D Q M d g

theorem upTo_zero (M : Fin 512) (d : Fin 165) : upTo X D Q M d 0 = 0 := by
  unfold upTo
  rw [Nat.mul_zero, Finset.range_zero, Finset.sum_empty]

/-- One more tile: its 6272 contributions are added to what the earlier tiles gave. -/
theorem upTo_succ (M : Fin 512) (d : Fin 165) (n : ℕ) :
    upTo X D Q M d (n + 1) = upTo X D Q M d n + ∑ j : Fin 6272, sampleN X D Q M d (6272 * n + j.val) := by
  unfold upTo
  rw [Nat.mul_succ, Finset.sum_range_add, Fin.sum_univ_eq_sum_range (fun j => sampleN X D Q M d (6272 * n + j)) 6272]

/-- Fourteen tiles are the grid. -/
theorem upTo_all (M : Fin 512) (d : Fin 165) : upTo X D Q M d 14 = total X D Q M d := by
  unfold upTo total
  rw [show 6272 * 14 = 87808 from by norm_num, ← Fin.sum_univ_eq_sum_range (fun g => sampleN X D Q M d g) 87808]
  refine Finset.sum_congr rfl fun g _ => ?_
  unfold sampleN
  rw [dif_pos g.isLt]

/-- Tile `k` as a computation on its own blocks: with `xb` the coefficient row, `db` the tile's 6272 basis rows and
    `qb` its 6272 weights, the tile's sum of `(max (xb · db j) 0 * qb j) * db j d` is the tile's contributions. -/
theorem tile_eq (M : Fin 512) (d : Fin 165) (k : ℕ) (hk : k < 14)
    (xb : Fin 165 → EReal) (db : Fin 6272 → Fin 165 → EReal) (qb : Fin 6272 → EReal)
    (hx : ∀ e, xb e = X (ix2 M e))
    (hd : ∀ (j : Fin 6272) (e : Fin 165), db j e = D (ix2 (⟨6272 * k + j.val, by have := j.isLt; omega⟩ : Fin 87808) e))
    (hq : ∀ j : Fin 6272, qb j = Q (ix2 (0 : Fin 1) (⟨6272 * k + j.val, by have := j.isLt; omega⟩ : Fin 87808))) :
    ∑ j : Fin 6272, (max (∑ e : Fin 165, xb e * db j e) 0 * qb j) * db j d
      = ∑ j : Fin 6272, sampleN X D Q M d (6272 * k + j.val) := by
  refine Finset.sum_congr rfl fun j _ => ?_
  have hj : 6272 * k + j.val < 87808 := by have := j.isLt; omega
  unfold sampleN
  rw [dif_pos hj]
  unfold sample signal
  rw [hq j, hd j d]
  refine congrArg (fun s => (max s 0 * _) * _) (Finset.sum_congr rfl fun e _ => ?_)
  rw [hx e, hd j e]

/-- One grid point's update: what the earlier tiles gave, plus tile `k` computed on its own blocks, is what the
    first `k + 1` tiles give. -/
theorem upTo_step (M : Fin 512) (d : Fin 165) (k : ℕ) (hk : k < 14)
    (xb : Fin 165 → EReal) (db : Fin 6272 → Fin 165 → EReal) (qb : Fin 6272 → EReal)
    (hx : ∀ e, xb e = X (ix2 M e))
    (hd : ∀ (j : Fin 6272) (e : Fin 165), db j e = D (ix2 (⟨6272 * k + j.val, by have := j.isLt; omega⟩ : Fin 87808) e))
    (hq : ∀ j : Fin 6272, qb j = Q (ix2 (0 : Fin 1) (⟨6272 * k + j.val, by have := j.isLt; omega⟩ : Fin 87808)))
    (prev : EReal) (hprev : prev = upTo X D Q M d k) :
    prev + ∑ j : Fin 6272, (max (∑ e : Fin 165, xb e * db j e) 0 * qb j) * db j d = upTo X D Q M d (k + 1) := by
  rw [upTo_succ, hprev, tile_eq X D Q M d k hk xb db qb hx hd hq]

/-! ### The same on the 32 × 16 grid of coefficient rows -/

/-- The coefficient rows as the programs take them: 32 × 16 rows of 165. -/
abbrev Coeffs : Shape := ⟨3, ![32, 16, 165]⟩
/-- The weights as the programs take them: one per grid sample. -/
abbrev WeightVec : Shape := ⟨1, ![87808]⟩

/-- The projection of every coefficient row: entry `(b, f, d)` sums, over the grid samples `g`, the rectified,
    weighted signal of row `(b, f)` at `g` times entry `d` of basis row `g`. -/
def whole (X3 : Coeffs.Idx → EReal) (D : Basis.Idx → EReal) (Qv : WeightVec.Idx → EReal) : Coeffs.Idx → EReal := fun i =>
  ∑ g : Fin 87808, (max (∑ e : Fin 165, X3 (ix3 (i 0) (i 1) e) * D (ix2 g e)) 0 * Qv (ix1 g)) * D (ix2 g (i 2))

/-- With row `M` of the flattened coefficients being row `(b, f)`, and the weight row holding the weights, the
    flattened projection's entry `(M, d)` is entry `(b, f, d)`. -/
theorem total_eq_whole (X3 : Coeffs.Idx → EReal) (D3 : Basis.Idx → EReal) (Qv : WeightVec.Idx → EReal)
    (b : Fin 32) (f : Fin 16) (d : Fin 165) (M : Fin 512)
    (hX : ∀ e, X (ix2 M e) = X3 (ix3 b f e)) (hD : ∀ i, D i = D3 i) (hQ : ∀ g, Q (ix2 (0 : Fin 1) g) = Qv (ix1 g)) :
    total X D Q M d = whole X3 D3 Qv (ix3 b f d) := by
  unfold total whole sample signal
  refine Finset.sum_congr rfl fun g _ => ?_
  rw [hQ g, hD (ix2 g d)]
  refine congrArg (fun s => (max s 0 * _) * _) (Finset.sum_congr rfl fun e _ => ?_)
  rw [hX e, hD (ix2 g e)]

end Cert.GridProjection

end
-- ==== Proof.Payload.lean ====
/-
  One grid point's arithmetic, entry by entry, at the ideal instance.

  The body multiplies its block of coefficient rows `x` (256 × 165) with the transposed tile of basis rows `b`
  (6272 × 165), drops the negative part, weights column `j` by the tile's weight `w j`, multiplies the result with
  the same basis tile and adds that to the accumulator `a`. Read at row `r` and column `d` this is
    a r d + ∑ j, (max (∑ e, x r e * b j e) 0 * w j) * b j d :
  a matrix product into a zero accumulator is the plain sum over the contracted axis, narrowing to the shorter float
  format is the identity on extended reals, and the weight row is repeated down the 256 rows.
-/
import proofs.«157414_j17678085390535_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PointValue

open Cert.KernelIdeal Cert.KernelIdeal.Gen Idealize.ShloMosaic Idealize.ShloMosaic.ValueIdx

/-! ### The first product: rows against the transposed basis tile -/

theorem lhs_signal_0 (i : S256x6272.Idx) (q : dot_S256x165_S6272x165_S256x6272_1_1_0_0_n_n.contr.Idx) :
    (dot_S256x165_S6272x165_S256x6272_1_1_0_0_n_n.lhsIdx i q 0).val = (i 0).val := by
  unfold DotDims.lhsIdx
  rw [dif_neg (show ¬(0 : Fin S256x165.rank) ∈ dot_S256x165_S6272x165_S256x6272_1_1_0_0_n_n.lhsBatch by decide), dif_pos (show (0 : Fin S256x165.rank) ∈ dot_S256x165_S6272x165_S256x6272_1_1_0_0_n_n.lhsNonContracting by decide)]
  rfl
theorem lhs_signal_1 (i : S256x6272.Idx) (q : dot_S256x165_S6272x165_S256x6272_1_1_0_0_n_n.contr.Idx) :
    (dot_S256x165_S6272x165_S256x6272_1_1_0_0_n_n.lhsIdx i q 1).val = (q ⟨0, by decide⟩).val :=
  dot_S256x165_S6272x165_S256x6272_1_1_0_0_n_n.lhsIdx_val_of_single rfl i q
theorem rhs_signal_0 (i : S256x6272.Idx) (q : dot_S256x165_S6272x165_S256x6272_1_1_0_0_n_n.contr.Idx) :
    (dot_S256x165_S6272x165_S256x6272_1_1_0_0_n_n.rhsIdx i q 0).val = (i 1).val := by
  unfold DotDims.rhsIdx
  rw [dif_neg (show ¬(0 : Fin S6272x165.rank) ∈ dot_S256x165_S6272x165_S256x6272_1_1_0_0_n_n.rhsBatch by decide), dif_pos (show (0 : Fin S6272x165.rank) ∈ dot_S256x165_S6272x165_S256x6272_1_1_0_0_n_n.rhsNonContracting by decide)]
  rfl
theorem rhs_signal_1 (i : S256x6272.Idx) (q : dot_S256x165_S6272x165_S256x6272_1_1_0_0_n_n.contr.Idx) :
    (dot_S256x165_S6272x165_S256x6272_1_1_0_0_n_n.rhsIdx i q 1).val = (q ⟨0, by decide⟩).val :=
  dot_S256x165_S6272x165_S256x6272_1_1_0_0_n_n.rhsIdx_val_of_single rfl i q

/-- Entry `(r, j)` of the first product is the inner product of row `r` with basis row `j` of the tile. -/
theorem signal_apply (x : FVec Ideal S256x165 .bf16) (b : FVec Ideal S6272x165 .bf16) (r : Fin 256) (j : Fin 6272) :
    matmul dot_S256x165_S6272x165_S256x6272_1_1_0_0_n_n none x b (constant S256x6272 .f32 0x00000000#32) (ix2 r j)
      = ∑ e : Fin 165, x (ix2 r e) * b (ix2 j e) := by
  simp only [matmul]
  rw [Ideal.matmul_constant_zero_apply, ← Equiv.sum_comp (contrEquiv1 dot_S256x165_S6272x165_S256x6272_1_1_0_0_n_n 165 rfl rfl).symm]
  refine Finset.sum_congr rfl fun k _ => ?_
  have hk := contrEquiv1_symm_val dot_S256x165_S6272x165_S256x6272_1_1_0_0_n_n 165 rfl rfl k
  have el : dot_S256x165_S6272x165_S256x6272_1_1_0_0_n_n.lhsIdx (ix2 r j) ((contrEquiv1 dot_S256x165_S6272x165_S256x6272_1_1_0_0_n_n 165 rfl rfl).symm k) = ix2 r k := funext fun a => Fin.ext (by
    match a with
    | ⟨0, _⟩ => exact lhs_signal_0 _ _
    | ⟨1, _⟩ => exact (lhs_signal_1 _ _).trans hk)
  have er : dot_S256x165_S6272x165_S256x6272_1_1_0_0_n_n.rhsIdx (ix2 r j) ((contrEquiv1 dot_S256x165_S6272x165_S256x6272_1_1_0_0_n_n 165 rfl rfl).symm k) = ix2 j k := funext fun a => Fin.ext (by
    match a with
    | ⟨0, _⟩ => exact rhs_signal_0 _ _
    | ⟨1, _⟩ => exact (rhs_signal_1 _ _).trans hk)
  rw [el, er]

/-! ### The second product: the weighted signal against the basis tile -/

theorem lhs_project_0 (i : S256x165.Idx) (q : dot_S256x6272_S6272x165_S256x165_1_0_0_1_n_n.contr.Idx) :
    (dot_S256x6272_S6272x165_S256x165_1_0_0_1_n_n.lhsIdx i q 0).val = (i 0).val := by
  unfold DotDims.lhsIdx
  rw [dif_neg (show ¬(0 : Fin S256x6272.rank) ∈ dot_S256x6272_S6272x165_S256x165_1_0_0_1_n_n.lhsBatch by decide), dif_pos (show (0 : Fin S256x6272.rank) ∈ dot_S256x6272_S6272x165_S256x165_1_0_0_1_n_n.lhsNonContracting by decide)]
  rfl
theorem lhs_project_1 (i : S256x165.Idx) (q : dot_S256x6272_S6272x165_S256x165_1_0_0_1_n_n.contr.Idx) :
    (dot_S256x6272_S6272x165_S256x165_1_0_0_1_n_n.lhsIdx i q 1).val = (q ⟨0, by decide⟩).val :=
  dot_S256x6272_S6272x165_S256x165_1_0_0_1_n_n.lhsIdx_val_of_single rfl i q
theorem rhs_project_0 (i : S256x165.Idx) (q : dot_S256x6272_S6272x165_S256x165_1_0_0_1_n_n.contr.Idx) :
    (dot_S256x6272_S6272x165_S256x165_1_0_0_1_n_n.rhsIdx i q 0).val = (q ⟨0, by decide⟩).val :=
  dot_S256x6272_S6272x165_S256x165_1_0_0_1_n_n.rhsIdx_val_of_single rfl i q
theorem rhs_project_1 (i : S256x165.Idx) (q : dot_S256x6272_S6272x165_S256x165_1_0_0_1_n_n.contr.Idx) :
    (dot_S256x6272_S6272x165_S256x165_1_0_0_1_n_n.rhsIdx i q 1).val = (i 1).val := by
  unfold DotDims.rhsIdx
  rw [dif_neg (show ¬(1 : Fin S6272x165.rank) ∈ dot_S256x6272_S6272x165_S256x165_1_0_0_1_n_n.rhsBatch by decide), dif_pos (show (1 : Fin S6272x165.rank) ∈ dot_S256x6272_S6272x165_S256x165_1_0_0_1_n_n.rhsNonContracting by decide)]
  rfl

/-- Entry `(r, d)` of the second product sums, over the tile's samples `j`, the weighted signal at `(r, j)` times
    entry `d` of basis row `j`. -/
theorem project_apply (s : FVec Ideal S256x6272 .bf16) (b : FVec Ideal S6272x165 .bf16) (r : Fin 256) (d : Fin 165) :
    matmul dot_S256x6272_S6272x165_S256x165_1_0_0_1_n_n none s b (constant S256x165 .f32 0x00000000#32) (ix2 r d)
      = ∑ j : Fin 6272, s (ix2 r j) * b (ix2 j d) := by
  simp only [matmul]
  rw [Ideal.matmul_constant_zero_apply, ← Equiv.sum_comp (contrEquiv1 dot_S256x6272_S6272x165_S256x165_1_0_0_1_n_n 6272 rfl rfl).symm]
  refine Finset.sum_congr rfl fun k _ => ?_
  have hk := contrEquiv1_symm_val dot_S256x6272_S6272x165_S256x165_1_0_0_1_n_n 6272 rfl rfl k
  have el : dot_S256x6272_S6272x165_S256x165_1_0_0_1_n_n.lhsIdx (ix2 r d) ((contrEquiv1 dot_S256x6272_S6272x165_S256x165_1_0_0_1_n_n 6272 rfl rfl).symm k) = ix2 r k := funext fun a => Fin.ext (by
    match a with
    | ⟨0, _⟩ => exact lhs_project_0 _ _
    | ⟨1, _⟩ => exact (lhs_project_1 _ _).trans hk)
  have er : dot_S256x6272_S6272x165_S256x165_1_0_0_1_n_n.rhsIdx (ix2 r d) ((contrEquiv1 dot_S256x6272_S6272x165_S256x165_1_0_0_1_n_n 6272 rfl rfl).symm k) = ix2 k d := funext fun a => Fin.ext (by
    match a with
    | ⟨0, _⟩ => exact (rhs_project_0 _ _).trans hk
    | ⟨1, _⟩ => exact rhs_project_1 _ _)
  rw [el, er]

/-! ### The weight row, repeated down the rows -/

/-- The tile's weights, one row of 6272, broadcast to 256 rows: entry `(r, j)` is weight `j`. -/
theorem weights_apply {α : Type} (w : S1x6272.Idx → α) (h : S1x6272.Broadcasts S256x6272) (r : Fin 256) (j : Fin 6272) :
    broadcastTo S256x6272 w h (ix2 r j) = w (ix2 (0 : Fin 1) j) :=
  broadcastTo_apply w h (ix2 r j) (ix2 (0 : Fin 1) j) (fun a => by
    match a with
    | ⟨0, _⟩ => show 0 = if (1 : Nat) = 1 then 0 else r.val; rw [if_pos rfl]
    | ⟨1, _⟩ => show j.val = if (6272 : Nat) = 1 then 0 else j.val; rw [if_neg (by decide)])

/-! ### The point's payloads -/

/-- The reset block is zero everywhere. -/
theorem reset_apply (i : S256x165.Idx) : k0_pay1 (F := Ideal) i = 0 := by
  unfold k0_pay1
  simp only [shapeCast_self]
  show Ideal.ofBits .f32 0x00000000#32 = 0
  exact Ideal.ofBits_zero_f32

/-- The accumulating store's payload at `(r, d)`: the accumulator there plus the tile's weighted, rectified
    signal projected on column `d` of the tile's basis rows. -/
theorem update_apply (x : Vec Ideal S256x165 .bf16) (b : Vec Ideal S6272x165 .bf16) (w : Vec Ideal S1x6272 .f32)
    (a : Vec Ideal S256x165 .f32) (r : Fin 256) (d : Fin 165) :
    k0_pay2 (F := Ideal) x b w a (ix2 r d)
      = a (ix2 r d) + ∑ j : Fin 6272, (max (∑ e : Fin 165, x (ix2 r e) * b (ix2 j e)) 0 * w (ix2 (0 : Fin 1) j)) * b (ix2 j d) := by
  unfold k0_pay2
  simp only [shapeCast_self]
  refine congrArg (a (ix2 r d) + ·) ?_
  refine (project_apply _ _ r d).trans ?_
  refine Finset.sum_congr rfl fun j _ => ?_
  refine congrArg (· * b (ix2 j d)) ?_
  show max (matmul dot_S256x165_S6272x165_S256x6272_1_1_0_0_n_n none x b (constant S256x6272 .f32 0x00000000#32) (ix2 r j)) (Ideal.ofBits .f32 0x00000000#32)
      * broadcastTo S256x6272 w _ (ix2 r j) = _
  rw [signal_apply, weights_apply, Ideal.ofBits_zero_f32]

end Cert.KernelIdeal.PointValue

end
-- ==== Proof.Cases.lean ====
/-
  What one grid point leaves behind, case by case, for any float values.

  The body keeps a running block in a scratch buffer. At the first tile of a row block it stores the zero block
  there and reads it back; at every tile it replaces the scratch by the update of what it read from it (the
  update: the tile's term added); at the last tile it copies the scratch, as just updated, into the output block.
  So the scratch ends at the update of zero (first tile) or of what the point before left (other tiles), and at a
  last tile the output block holds the same value as the scratch. Each is the payload of one store that covers
  the whole buffer, its loads reading whole buffers.
-/
import proofs.«157414_j17678085390535_1_alg».proof.Proof.Gen.KernelIdeal.Frame
import Idealize.ShloMosaic.Lib.Pipeline.Value
import Idealize.ShloMosaic.Lib.Tactic

noncomputable section

namespace Cert.KernelIdeal.CaseValue

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First tile of a row block: the scratch is zeroed, read back, and updated. -/
theorem scratch_first (c : Dev nD) (i : grid0.Coords) (arg2 : Memref sig .tc .vmem S256x165 .bf16) (harg2 : arg2.IsWhole) (arg3 : Memref sig .tc .vmem S6272x165 .bf16) (harg3 : arg3.IsWhole) (arg4 : Memref sig .tc .vmem S1x6272 .f32) (harg4 : arg4.IsWhole) (arg5 : Memref sig .tc .vmem S256x165 .f32) (harg5 : arg5.IsWhole) (arg6 : Memref sig .tc .vmem S256x165 .f32) (harg6 : arg6.IsWhole) (hc0 : cond0_0 i) (hc1 : ¬cond0_1 i)
    (x0 : Vec F S256x165 .bf16) (x1 : Vec F S6272x165 .bf16) (x2 : Vec F S1x6272 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x165) hz, View.readCov_unit_zero (S := S256x165) _ hz]
  simp only [View.readAt_eq_ld, harg2.read_unread, harg3.read_unread, harg4.read_unread, harg6.read_unread,
    View.ld_unit_zero (S := S256x165) hz, View.ld_unit_zero (S := S6272x165) hz, View.ld_unit_zero (S := S1x6272) hz]

/-- A tile that is neither first nor last: the scratch is updated from what the point before left. -/
theorem scratch_middle (c : Dev nD) (i : grid0.Coords) (arg2 : Memref sig .tc .vmem S256x165 .bf16) (harg2 : arg2.IsWhole) (arg3 : Memref sig .tc .vmem S6272x165 .bf16) (harg3 : arg3.IsWhole) (arg4 : Memref sig .tc .vmem S1x6272 .f32) (harg4 : arg4.IsWhole) (arg5 : Memref sig .tc .vmem S256x165 .f32) (harg5 : arg5.IsWhole) (arg6 : Memref sig .tc .vmem S256x165 .f32) (harg6 : arg6.IsWhole) (hc0 : ¬cond0_0 i) (hc1 : ¬cond0_1 i)
    (x0 : Vec F S256x165 .bf16) (x1 : Vec F S6272x165 .bf16) (x2 : Vec F S1x6272 .f32) (xs0 : Vec F S256x165 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S256x165) hz, View.ld_unit_zero (S := S6272x165) hz, View.ld_unit_zero (S := S1x6272) hz]

/-- Last tile of a row block: the scratch is updated the same way, -/
theorem scratch_last (c : Dev nD) (i : grid0.Coords) (arg2 : Memref sig .tc .vmem S256x165 .bf16) (harg2 : arg2.IsWhole) (arg3 : Memref sig .tc .vmem S6272x165 .bf16) (harg3 : arg3.IsWhole) (arg4 : Memref sig .tc .vmem S1x6272 .f32) (harg4 : arg4.IsWhole) (arg5 : Memref sig .tc .vmem S256x165 .f32) (harg5 : arg5.IsWhole) (arg6 : Memref sig .tc .vmem S256x165 .f32) (harg6 : arg6.IsWhole) (hc0 : ¬cond0_0 i) (hc1 : cond0_1 i)
    (x0 : Vec F S256x165 .bf16) (x1 : Vec F S6272x165 .bf16) (x2 : Vec F S1x6272 .f32) (xs0 : Vec F S256x165 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S256x165) hz, View.ld_unit_zero (S := S6272x165) hz, View.ld_unit_zero (S := S1x6272) hz]

/-- and the output block receives the scratch as just updated. -/
theorem out_last (c : Dev nD) (i : grid0.Coords) (arg2 : Memref sig .tc .vmem S256x165 .bf16) (harg2 : arg2.IsWhole) (arg3 : Memref sig .tc .vmem S6272x165 .bf16) (harg3 : arg3.IsWhole) (arg4 : Memref sig .tc .vmem S1x6272 .f32) (harg4 : arg4.IsWhole) (arg5 : Memref sig .tc .vmem S256x165 .f32) (harg5 : arg5.IsWhole) (arg6 : Memref sig .tc .vmem S256x165 .f32) (harg6 : arg6.IsWhole) (hc0 : ¬cond0_0 i) (hc1 : cond0_1 i)
    (x0 : Vec F S256x165 .bf16) (x1 : Vec F S6272x165 .bf16) (x2 : Vec F S1x6272 .f32) (xs0 : Vec F S256x165 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S256x165) _ hz]
  simp only [View.readAt_eq_ld, harg2.read_unread, harg3.read_unread, harg4.read_unread, harg6.read_unread,
    View.ld_unit_zero (S := S256x165) hz, View.ld_unit_zero (S := S6272x165) hz, View.ld_unit_zero (S := S1x6272) hz]

end Cert.KernelIdeal.CaseValue

end
-- ==== Proof.Blocks.lean ====
/-
  The arrays the kernel region finds, and the blocks its grid points read from them.

  The grid has 28 points: point `t` works on row block `t / 14` (256 rows of the 512) and on tile `t % 14`
  (6272 of the 87808 grid samples). Its coefficient block is rows `256 * (t / 14) + r` of the coefficient array,
  its basis block is rows `6272 * (t % 14) + j` of the basis array, and its weight block is columns
  `6272 * (t % 14) + j` of the weight row.

  Before the region the host flattens the 32 × 16 coefficient rows to 512 (row `16 * b + f`), narrows the
  coefficients and the basis to a shorter float format (the identity on extended reals), and lays the weights
  out as one row.
-/
import proofs.«157414_j17678085390535_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The coefficient rows, the basis and the weight row as the region finds them. -/
abbrev rowsArr (c : Dev nD) : Vec F S512x165 .bf16 := V m c main_v1
abbrev basisArr (c : Dev nD) : Vec F S87808x165 .bf16 := V m c main_v2
abbrev weightArr (c : Dev nD) : Vec F S1x87808 .f32 := V m c main_v3

/-- Point `t`'s blocks of them. -/
abbrev xblk (c : Dev nD) (t : Fin cfg0.N) : Vec F S256x165 .bf16 := iblk m c 0 t
abbrev bblk (c : Dev nD) (t : Fin cfg0.N) : Vec F S6272x165 .bf16 := iblk m c 1 t
abbrev wblk (c : Dev nD) (t : Fin cfg0.N) : Vec F S1x6272 .f32 := iblk m c 2 t

/-- Which block of each array point `t` works on: row block `t / 14`, tile `t % 14`. -/
theorem block_of_point : ∀ t : Fin cfg0.N,
    win0_0.index t (0 : Fin 2) = t.val / 14 ∧ win0_0.index t (1 : Fin 2) = 0
    ∧ win0_1.index t (0 : Fin 2) = t.val % 14 ∧ win0_1.index t (1 : Fin 2) = 0
    ∧ win0_2.index t (0 : Fin 2) = 0 ∧ win0_2.index t (1 : Fin 2) = t.val % 14
    ∧ win0_3.index t (0 : Fin 2) = t.val / 14 ∧ win0_3.index t (1 : Fin 2) = 0 :=
  (by decide +kernel : ∀ t : Fin grid0.N, _)

/-- Row `r` of the coefficient block is row `256 * (t / 14) + r` of the array. -/
theorem xblk_apply (c : Dev nD) (t : Fin cfg0.N) (r : Fin 256) (e : Fin 165) (M : Fin 512)
    (hM : M.val = 256 * (t.val / 14) + r.val) :
    xblk m c t (ix2 r e) = rowsArr m c (ix2 M e) := by
  obtain ⟨h0, h1, -⟩ := block_of_point t
  unfold xblk iblk
  rw [View.read_apply]
  show V m c main_v1 _ = V m c main_v1 _
  congr 1
  funext a
  apply Fin.ext
  match a with
  | ⟨0, _⟩ => show win0_0.index t (0 : Fin 2) * 256 + 1 * r.val = M.val; rw [h0, hM]; omega
  | ⟨1, _⟩ => show win0_0.index t (1 : Fin 2) * 165 + 1 * e.val = e.val; rw [h1]; omega

/-- Row `j` of the basis block is row `6272 * (t % 14) + j` of the basis. -/
theorem bblk_apply (c : Dev nD) (t : Fin cfg0.N) (j : Fin 6272) (e : Fin 165) (g : Fin 87808)
    (hg : g.val = 6272 * (t.val % 14) + j.val) :
    bblk m c t (ix2 j e) = basisArr m c (ix2 g e) := by
  obtain ⟨-, -, h0, h1, -⟩ := block_of_point t
  unfold bblk iblk
  rw [View.read_apply]
  show V m c main_v2 _ = V m c main_v2 _
  congr 1
  funext a
  apply Fin.ext
  match a with
  | ⟨0, _⟩ => show win0_1.index t (0 : Fin 2) * 6272 + 1 * j.val = g.val; rw [h0, hg]; omega
  | ⟨1, _⟩ => show win0_1.index t (1 : Fin 2) * 165 + 1 * e.val = e.val; rw [h1]; omega

/-- Column `j` of the weight block is column `6272 * (t % 14) + j` of the weight row. -/
theorem wblk_apply (c : Dev nD) (t : Fin cfg0.N) (j : Fin 6272) (g : Fin 87808)
    (hg : g.val = 6272 * (t.val % 14) + j.val) :
    wblk m c t (ix2 (0 : Fin 1) j) = weightArr m c (ix2 (0 : Fin 1) g) := by
  obtain ⟨-, -, -, -, h0, h1, -⟩ := block_of_point t
  unfold wblk iblk
  rw [View.read_apply]
  show V m c main_v3 _ = V m c main_v3 _
  congr 1
  funext a
  apply Fin.ext
  match a with
  | ⟨0, _⟩ => show win0_2.index t (0 : Fin 2) * 1 + 1 * 0 = 0; rw [h0]
  | ⟨1, _⟩ => show win0_2.index t (1 : Fin 2) * 6272 + 1 * j.val = g.val; rw [h1, hg]; omega

/-! ### The arrays from the program's arguments -/

/-- The coefficient array is the flattened, narrowed first argument; -/
theorem rowsArr_eq (c : Dev nD) (h1 : S32x16x165.ShapeCasts S512x165) (h2 : FTy.bits .bf16 < FTy.bits .f32) :
    rowsArr m c = truncf .bf16 (shapeCast S512x165 (m ((c : Thread nD τ).loc main_arg0)) h1) h2 := by
  show StableHlo.after hostOps0 (fun b => m (c, b)) (Proc.devRef .tc main_v1) = _
  after_results
  rfl

/-- the basis is the narrowed second argument; -/
theorem basisArr_eq (c : Dev nD) (h2 : FTy.bits .bf16 < FTy.bits .f32) :
    basisArr m c = truncf .bf16 (m ((c : Thread nD τ).loc main_arg1)) h2 := by
  show StableHlo.after hostOps0 (fun b => m (c, b)) (Proc.devRef .tc main_v2) = _
  after_results

/-- the weight row is the third argument laid out as one row. -/
theorem weightArr_eq (c : Dev nD) (h1 : S87808.ShapeCasts S1x87808) :
    weightArr m c = shapeCast S1x87808 (m ((c : Thread nD τ).loc main_arg2)) h1 := by
  show StableHlo.after hostOps0 (fun b => m (c, b)) (Proc.devRef .tc main_v3) = _
  after_results
  rfl

end Cert.KernelIdeal.Blocks

/-! ### The same at the ideal instance, entry by entry -/

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Row `16 * b + f` of the coefficient array is row `(b, f)` of the first argument. -/
theorem rowsArr_apply (c : Dev nD) (b : Fin 32) (f : Fin 16) (e : Fin 165) (M : Fin 512) (hM : M.val = 16 * b.val + f.val) :
    rowsArr m c (ix2 M e) = m ((c : Thread nD τ).loc main_arg0) (ix3 b f e) := by
  rw [rowsArr_eq m c facts.shapeCasts_S32x16x165_S512x165 facts.bitsLt_bf16_f32]
  show shapeCast S512x165 (m ((c : Thread nD τ).loc main_arg0)) _ (ix2 M e) = _
  refine shapeCast_apply _ _ (ix2 M e) (ix3 b f e) ?_
  rw [Shape.rowMajor_val_three, Shape.rowMajor_val_two]
  show (b.val * 16 + f.val) * 165 + e.val = M.val * 165 + e.val
  rw [hM]; ring

/-- The basis array is the second argument. -/
theorem basisArr_apply (c : Dev nD) (i : S87808x165.Idx) :
    basisArr m c i = m ((c : Thread nD τ).loc main_arg1) i := by
  rw [basisArr_eq m c facts.bitsLt_bf16_f32]
  rfl

/-- Column `g` of the weight row is entry `g` of the third argument. -/
theorem weightArr_apply (c : Dev nD) (g : Fin 87808) :
    weightArr m c (ix2 (0 : Fin 1) g) = m ((c : Thread nD τ).loc main_arg2) (ix1 g) := by
  rw [weightArr_eq m c facts.shapeCasts_S87808_S1x87808]
  refine shapeCast_apply _ _ (ix2 (0 : Fin 1) g) (ix1 g) ?_
  rw [Shape.rowMajor_val_one, Shape.rowMajor_val_two]
  show g.val = 0 * 87808 + g.val
  omega

end Cert.KernelIdeal.Blocks

end
-- ==== Proof.Accumulate.lean ====
/-
  The scratch buffer is a running sum over the tiles.

  Write a grid point as `n = 14 * q + k`: row block `q`, tile `k`. After point `n` the scratch holds, at row
  `r` and column `d`, the contributions of the first `k + 1` tiles to entry `(256 * q + r, d)` of the projection.
  At tile 0 the scratch starts from the zero block, so it holds tile 0's contributions. At a later tile the point
  before belongs to the same row block and left the first `k` tiles' contributions; the point adds tile `k`'s.
-/
import proofs.«157414_j17678085390535_1_alg».proof.Proof.Spec
import proofs.«157414_j17678085390535_1_alg».proof.Proof.Payload
import proofs.«157414_j17678085390535_1_alg».proof.Proof.Cases
import proofs.«157414_j17678085390535_1_alg».proof.Proof.Blocks

noncomputable section

namespace Cert.KernelIdeal.Accumulate

open Cert.KernelIdeal Cert.KernelIdeal.Gen Idealize.ShloMosaic Idealize.ShloMosaic.TcCoe Idealize.SL.Sem
open Idealize.ShloMosaic.ValueIdx
open Cert.GridProjection Cert.KernelIdeal.Blocks Cert.KernelIdeal.CaseValue Cert.KernelIdeal.PointValue

variable (m : (ℓ : Loc nD τ sig) → Buf (Elt Ideal) ℓ)

/-- The first `n` tiles' contributions to entry `(M, d)`, over the arrays the region finds. -/
abbrev partialAt (c : Dev nD) (M : Fin 512) (d : Fin 165) (n : ℕ) : EReal :=
  upTo (rowsArr m c) (basisArr m c) (weightArr m c) M d n

/-- The whole projection's entry `(M, d)`, over the same arrays. -/
abbrev totalAt (c : Dev nD) (M : Fin 512) (d : Fin 165) : EReal :=
  total (rowsArr m c) (basisArr m c) (weightArr m c) M d

/-- One point's update: over a block that holds the first `t % 14` tiles' contributions at `(r, d)`, the update
    holds the first `t % 14 + 1` tiles' there. -/
theorem point_value (c : Dev nD) (t : Fin cfg0.N) (r : Fin 256) (d : Fin 165) (M : Fin 512)
    (hM : M.val = 256 * (t.val / 14) + r.val) (prev : Vec Ideal S256x165 .f32)
    (hprev : prev (ix2 r d) = partialAt m c M d (t.val % 14)) :
    k0_pay2 (F := Ideal) (xblk m c t) (bblk m c t) (wblk m c t) prev (ix2 r d) = partialAt m c M d (t.val % 14 + 1) :=
  (update_apply (xblk m c t) (bblk m c t) (wblk m c t) prev r d).trans
    (upTo_step (rowsArr m c) (basisArr m c) (weightArr m c) M d (t.val % 14) (Nat.mod_lt _ (by norm_num))
      (fun e => xblk m c t (ix2 r e)) (fun j e => bblk m c t (ix2 j e)) (fun j => wblk m c t (ix2 (0 : Fin 1) j))
      (fun e => xblk_apply m c t r e M hM)
      (fun j e => bblk_apply m c t j e _ rfl)
      (fun j => wblk_apply m c t j _ rfl)
      (prev (ix2 r d)) hprev)

/-- After point `n` the scratch holds the first `n % 14 + 1` tiles' contributions to the rows of block `n / 14`. -/
theorem scratch_sum (c : Dev nD) (n : ℕ) : ∀ (h : n < cfg0.N) (r : Fin 256) (d : Fin 165) (M : Fin 512),
    M.val = 256 * (n / 14) + r.val → (outsAt0 m c n h).2 (ix2 r d) = partialAt m c M d (n % 14 + 1) := by
  induction n using Nat.strong_induction_on with
  | _ n ih =>
    intro h r d M hM
    have hN : n < 28 := lt_of_lt_of_eq h (show cfg0.N = 28 from N_0)
    by_cases h0 : n % 14 = 0
    · have h1 : ¬n % 14 = 13 := by omega
      rw [outsAt0_A m c ⟨n, h⟩ h0 h1]
      dsimp only
      refine (congrFun (scratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (xblk m c ⟨n, h⟩) (bblk m c ⟨n, h⟩) (wblk m c ⟨n, h⟩)) (ix2 r d)).trans ?_
      refine point_value m c ⟨n, h⟩ r d M hM _ ?_
      show k0_pay1 (F := Ideal) (ix2 r d) = partialAt m c M d (n % 14)
      rw [h0]
      exact (reset_apply _).trans (upTo_zero _ _ _ M d).symm
    · have e2 : (n - 1) % 14 + 1 = n % 14 := by omega
      have hprev : (outsAt0 m c (n - 1) (Nat.lt_of_le_of_lt (Nat.sub_le _ _) h)).2 (ix2 r d) = partialAt m c M d (n % 14) := by
        rw [← e2]
        exact ih (n - 1) (by omega) _ r d M (by omega)
      by_cases h1 : n % 14 = 13
      · rw [outsAt0_C m c ⟨n, h⟩ h0 h1]
        dsimp only
        refine (congrFun (scratch_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1) (xblk m c ⟨n, h⟩) (bblk m c ⟨n, h⟩) (wblk m c ⟨n, h⟩) (outsAt0 m c (n - 1) (Nat.lt_of_le_of_lt (Nat.sub_le _ _) h)).2) (ix2 r d)).trans ?_
        exact point_value m c ⟨n, h⟩ r d M hM _ hprev
      · rw [outsAt0_B m c ⟨n, h⟩ h0 h1]
        dsimp only
        refine (congrFun (scratch_middle (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (fun hh => h1 ((hcond0_1 ⟨n, h⟩).mp hh)) (xblk m c ⟨n, h⟩) (bblk m c ⟨n, h⟩) (wblk m c ⟨n, h⟩) (outsAt0 m c (n - 1) (Nat.lt_of_le_of_lt (Nat.sub_le _ _) h)).2) (ix2 r d)).trans ?_
        exact point_value m c ⟨n, h⟩ r d M hM _ hprev

/-- At a last tile the output block receives the same values: all fourteen tiles' contributions, the projection's
    entries for the rows of block `t / 14`. -/
theorem out_total (c : Dev nD) (t : Fin cfg0.N) (h0 : ¬t.val % 14 = 0) (h1 : t.val % 14 = 13) (y : S256x165.Idx)
    (M : Fin 512) (d : Fin 165) (hM : M.val = 256 * (t.val / 14) + (y 0).val) (hd : d = y 1) :
    (outsAt0 m c t.val t.isLt).1 y = totalAt m c M d := by
  subst hd
  obtain ⟨r, d, rfl⟩ : ∃ (r : Fin 256) (d : Fin 165), y = ix2 r d := ⟨y 0, y 1, eq_ix2 y⟩
  have hN : t.val < 28 := lt_of_lt_of_eq t.isLt (show cfg0.N = 28 from N_0)
  have e2 : (t.val - 1) % 14 + 1 = t.val % 14 := by omega
  have hprev : (outsAt0 m c (t.val - 1) (Nat.lt_of_le_of_lt (Nat.sub_le _ _) t.isLt)).2 (ix2 r d) = partialAt m c M d (t.val % 14) := by
    rw [← e2]
    exact scratch_sum m c (t.val - 1) _ r d M (by have : (ix2 r d : S256x165.Idx) 0 = r := rfl; rw [this] at hM; omega)
  rw [outsAt0_C m c t h0 h1]
  dsimp only
  refine (congrFun (out_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (xblk m c t) (bblk m c t) (wblk m c t) (outsAt0 m c (t.val - 1) (Nat.lt_of_le_of_lt (Nat.sub_le _ _) t.isLt)).2) (ix2 r d)).trans ?_
  refine (point_value m c t r d M hM _ hprev).trans ?_
  rw [h1]
  exact upTo_all _ _ _ M d

end Cert.KernelIdeal.Accumulate

end
-- ==== Proof.KernelValue.lean ====
/-
  The kernel's result array.

  The output block of row block `q` is written back once, after the last tile (grid point `14 * q + 13`), and by
  then it holds all fourteen tiles' contributions: rows `256 * q + r` of the flattened projection. The two
  write-backs cover the 512 rows, so the region leaves the flattened projection in its result array. The host
  then lays the 512 rows out as 32 × 16 again: entry `(b, f, d)` is entry `(16 * b + f, d)`, and flattened row
  `16 * b + f` of the coefficients was row `(b, f)`, so the program's result is the projection of every
  coefficient row, entry by entry.
-/
import proofs.«157414_j17678085390535_1_alg».proof.Proof.Accumulate
import Idealize.ShloMosaic.Lib.Pipeline.Value
import Idealize.ShloMosaic.Lib.StableHlo.Run
import Idealize.ShloMosaic.Lib.Tactic

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)
open Cert.GridProjection Cert.KernelIdeal.Blocks Cert.KernelIdeal.Accumulate

variable (m : (ℓ : Loc nD τ sig) → Buf (Elt Ideal) ℓ) (ρ : Dev nD → PrngReg)

/-- The flattened projection over the arrays the region finds, as contents of the region's result array. -/
def projected (c : Dev nD) : Vec Ideal S512x165 .f32 := fun i => totalAt m c (i 0) (i 1)

/-- What a write-back writes is its block of any array that holds the flattened projection. -/
theorem flushed_eq (c : Dev nD) (t : Fin cfg0.N) (hf : (cfg0.win 3).flush t = true) (G : Vec Ideal S512x165 .f32)
    (hG : ∀ i : S512x165.Idx, G i = totalAt m c (i 0) (i 1)) :
    (dats m 0 c).flushed 3 t = ((cfg0.win 3).blk t).view.read (Elt Ideal) G := by
  have hN : t.val < 28 := lt_of_lt_of_eq t.isLt (show cfg0.N = 28 from N_0)
  have h1 : t.val % 14 = 13 := (flush0_3 t).mp hf
  have h0 : ¬t.val % 14 = 0 := by omega
  obtain ⟨-, -, -, -, -, -, i0, i1⟩ := block_of_point t
  show (cfg0.win 3).cut (grid0.coords t) ((dats m 0 c).after 3 t) = _
  rw [after0_3]
  funext y
  show (outsAt0 m c t.val t.isLt).1 ((cfg0.win 3).xinj (grid0.coords t) y) = _
  rw [View.read_apply]
  show _ = G (((cfg0.win 3).blk t).view.emb y)
  rw [hG]
  exact out_total m c t h0 h1 ((cfg0.win 3).xinj (grid0.coords t) y) _ _
    (by show win0_3.index t (0 : Fin 2) * 256 + 1 * (y 0).val = 256 * (t.val / 14) + (y 0).val; rw [i0]; omega)
    (Fin.ext (by show win0_3.index t (1 : Fin 2) * 165 + 1 * (y 1).val = (y 1).val; rw [i1]; omega))

/-- An entry of the result array is in point `t`'s block when each coordinate is in the block's range. -/
theorem mem_blk (t : Fin cfg0.N) (i : S512x165.Idx) :
    i ∈ ((cfg0.win 3).blk t).view.set ↔ ∀ a : Fin 2, win0_3.index t a * S256x165.size a ≤ (i a).val ∧ (i a).val < win0_3.index t a * S256x165.size a + S256x165.size a := by
  show i ∈ ((View.whole main_v4).slice (win0_3.rect t)).set ↔ _
  rw [View.set_slice_whole, Rect.mem_set_unit]
  exact Iff.rfl

/-- Row `i 0` lies in row block `(i 0) / 256`, which the last tile of that block writes back. -/
theorem covered (i : S512x165.Idx) :
    ∃ t : Fin cfg0.N, (cfg0.win 3).flush t = true ∧ i ∈ ((cfg0.win 3).blk t).view.set := by
  have hi0 : (i 0).val < 512 := (i 0).isLt
  have hi1 : (i 1).val < 165 := (i 1).isLt
  have hN : cfg0.N = 28 := N_0
  have ht : 14 * ((i 0).val / 256) + 13 < cfg0.N := by rw [hN]; omega
  refine ⟨⟨14 * ((i 0).val / 256) + 13, ht⟩, (flush0_3 _).mpr (by show (14 * ((i 0).val / 256) + 13) % 14 = 13; omega), ?_⟩
  rw [mem_blk]
  obtain ⟨-, -, -, -, -, -, i0, i1⟩ := block_of_point ⟨14 * ((i 0).val / 256) + 13, ht⟩
  intro a
  match a with
  | ⟨0, _⟩ =>
    show win0_3.index ⟨14 * ((i 0).val / 256) + 13, ht⟩ (0 : Fin 2) * 256 ≤ (i 0).val ∧ (i 0).val < win0_3.index ⟨14 * ((i 0).val / 256) + 13, ht⟩ (0 : Fin 2) * 256 + 256
    rw [i0]; dsimp only; omega
  | ⟨1, _⟩ =>
    show win0_3.index ⟨14 * ((i 0).val / 256) + 13, ht⟩ (1 : Fin 2) * 165 ≤ (i 1).val ∧ (i 1).val < win0_3.index ⟨14 * ((i 0).val / 256) + 13, ht⟩ (1 : Fin 2) * 165 + 165
    rw [i1]; omega

/-- The region leaves the flattened projection in its result array. -/
theorem region_result (c : Dev nD) : (dats m 0 c).arrAt 3 cfg0.N = projected m c :=
  (dats m 0 c).arrAt_eq_of_cover 3 (projected m c) (fun t hf => flushed_eq m c t hf (projected m c) (fun _ => rfl)) covered

/-- The program's result: the host's reshape of the region's result array. -/
theorem tail_eq (c : Dev nD) (h : S512x165.ShapeCasts S32x16x165) :
    Pipeline.afterTail₀ cfgs (dats m) 0 (V0 m) [hostOps1] c main_v5 = shapeCast S32x16x165 (projected m c) h := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4) = projected m c :=
    (Pipeline.withArrays_arr spec0 launch0.win.arr_inj c (V0 m c) (fun w => (dats m 0 c).arrAt w (cfgs 0).N) 3).trans (region_result m c)
  rw [e]
  rfl

theorem projected_apply (c : Dev nD) (M : Fin 512) (d : Fin 165) : projected m c (ix2 M d) = totalAt m c M d := rfl

/-- Entry `(b, f, d)` of the program's result is the projection of coefficient row `(b, f)` at `d`, over the
    program's own arguments. -/
theorem result_apply (c : Dev nD) (h : S512x165.ShapeCasts S32x16x165) (b : Fin 32) (f : Fin 16) (d : Fin 165) :
    shapeCast S32x16x165 (projected m c) h (ix3 b f d)
      = whole (m ((c.tc : Thread nD τ).loc main_arg0)) (m ((c.tc : Thread nD τ).loc main_arg1))
          (m ((c.tc : Thread nD τ).loc main_arg2)) (ix3 b f d) := by
  have hM : 16 * b.val + f.val < 512 := by have := b.isLt; have := f.isLt; omega
  refine (shapeCast_apply _ h (ix3 b f d) (ix2 (⟨16 * b.val + f.val, hM⟩ : Fin 512) d) ?_).trans ?_
  · rw [Shape.rowMajor_val_two, Shape.rowMajor_val_three]
    show (16 * b.val + f.val) * 165 + d.val = (b.val * 16 + f.val) * 165 + d.val
    ring
  · rw [projected_apply]
    exact total_eq_whole (rowsArr m c) (basisArr m c) (weightArr m c) _ _ _ b f d _
      (fun e => rowsArr_apply m c b f e _ rfl) (fun i => basisArr_apply m c i) (fun g => weightArr_apply m c g)

/-- Every weakly fair execution ends with the result array at the projection of every coefficient row and the
    three arguments as they were. -/
theorem run : θ_run defs (onTc (τ := τ) (main (F := Ideal))) ⟨m, fun _ => 0, ρ⟩ fun r => ∀ c : Dev nD,
      r.2.mem ((c.tc : Thread nD τ).loc main_v5)
        = whole (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans
        ((tail_eq m c facts.shapeCasts_S512x165_S32x16x165).trans (funext fun i => by
          obtain ⟨b, f, d, rfl⟩ : ∃ (b : Fin 32) (f : Fin 16) (d : Fin 165), i = ix3 b f d := ⟨i 0, i 1, i 2, eq_ix3 i⟩
          exact result_apply m c _ b f d)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference program's result, read index by index at the ideal instance.

  The reference contracts the coefficient rows with the basis over the 165 coefficients (the signal on the grid),
  takes the maximum with zero, multiplies by the weights repeated over the 32 × 16 rows, and contracts the result
  with the basis over the 87808 grid samples. Entry `(b, f, d)` of its result is therefore the sum over the samples
  `g` of `(max (∑ e, x b f e * basis g e) 0 * weight g) * basis g d`: the projection of every coefficient row.
-/
import proofs.«157414_j17678085390535_1_alg».proof.Proof.Gen.ReferenceIdeal.Read
import proofs.«157414_j17678085390535_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.GridProjection

/-- The reference's last stage is the projection of every coefficient row. -/
theorem result_eq (x0 : (⟨S32x16x165, .f32⟩ : BufTy).Contents (Elt Ideal)) (x1 : (⟨S87808x165, .f32⟩ : BufTy).Contents (Elt Ideal))
    (x2 : (⟨S87808, .f32⟩ : BufTy).Contents (Elt Ideal)) :
    val_main_v5 (F := Ideal) x0 x1 x2 = whole x0 x1 x2 := by
  funext i
  rw [val_main_v5_apply]
  unfold whole
  refine Finset.sum_congr rfl fun g _ => ?_
  have e1 : ridx_main_v5 i g = ix2 g (i 2) := funext fun a => Fin.ext (by
    match a with
    | ⟨0, _⟩ => rfl
    | ⟨1, _⟩ => rfl)
  have e2 : ∀ k : Fin 165, lidx_main_v0 (lidx_main_v5 i g) k = ix3 (i 0) (i 1) k := fun k => funext fun a => Fin.ext (by
    match a with
    | ⟨0, _⟩ => rfl
    | ⟨1, _⟩ => rfl
    | ⟨2, _⟩ => rfl)
  have e3 : ∀ k : Fin 165, ridx_main_v0 (lidx_main_v5 i g) k = ix2 g k := fun k => funext fun a => Fin.ext (by
    match a with
    | ⟨0, _⟩ => rfl
    | ⟨1, _⟩ => rfl)
  have e4 : idx_main_v2 (idx_main_v3 (lidx_main_v5 i g)) = ix1 g := funext fun a => Fin.ext (by
    match a with
    | ⟨0, _⟩ => rfl)
  rw [val_main_v4_apply, val_main_v1_apply, val_main_v0_apply, val_main_v3_apply, val_main_v2_apply,
    val_main_call0_v0_apply, val_main_call0_cst_apply, e1, e4]
  simp only [e2, e3]
  show max _ (Ideal.ofBits .f32 0x00000000#32) * _ * _ = _
  rw [Ideal.ofBits_zero_f32]
  rfl

end Cert.ReferenceIdeal.RefValue

end
-- ==== Proof.lean ====
/-
  The kernel and the reference compute the same projection over the extended reals.

  Both take 32 × 16 coefficient rows of length 165, a basis with one row of 165 per sample of a grid of 87808, and
  one weight per sample. Entry `(b, f, d)` of the result is
      ∑ g, (max (∑ e, x b f e * basis g e) 0 * weight g) * basis g d :
  the row is synthesised on the grid, its negative part dropped, the samples weighted, and the weighted signal
  projected back on the basis.

  The reference takes the two contractions whole. The kernel flattens the rows to 512, works on blocks of 256
  rows, and walks the grid in 14 tiles of 6272 samples, keeping a running block: zero before the first tile, each
  tile's sum added, the block written out after the last tile. The only law between the two is that a sum over
  87808 samples is the sum of its 14 consecutive parts, added in order to zero, which holds in any commutative
  monoid and so over the extended reals with no finiteness assumption. The narrowing of the coefficients, the
  basis and the weighted signal to a shorter float format is the identity on extended reals, and the ideal pass
  rewrote nothing, so the kernel's idealization is the kernel's own text.
-/
import proofs.«157414_j17678085390535_1_alg».proof.Defs
import proofs.«157414_j17678085390535_1_alg».proof.Proof.Gen.Kernel
import proofs.«157414_j17678085390535_1_alg».proof.Proof.Gen.Kernel.Skeleton
import proofs.«157414_j17678085390535_1_alg».proof.Proof.Gen.Kernel.Launch
import proofs.«157414_j17678085390535_1_alg».proof.Proof.Gen.Kernel.Points
import proofs.«157414_j17678085390535_1_alg».proof.Proof.Gen.Kernel.Frame
import proofs.«157414_j17678085390535_1_alg».proof.Proof.Gen.KernelIdeal
import proofs.«157414_j17678085390535_1_alg».proof.Proof.Gen.KernelIdeal.Skeleton
import proofs.«157414_j17678085390535_1_alg».proof.Proof.Gen.KernelIdeal.Launch
import proofs.«157414_j17678085390535_1_alg».proof.Proof.Gen.KernelIdeal.Points
import proofs.«157414_j17678085390535_1_alg».proof.Proof.Gen.KernelIdeal.Frame
import proofs.«157414_j17678085390535_1_alg».proof.Proof.Gen.ReferenceIdeal
import proofs.«157414_j17678085390535_1_alg».proof.Proof.Gen.ReferenceIdeal.Run
import proofs.«157414_j17678085390535_1_alg».proof.Proof.Gen.ReferenceIdeal.Read
import proofs.«157414_j17678085390535_1_alg».proof.Proof.Gen.Pre_finite_inputs
import proofs.«157414_j17678085390535_1_alg».proof.Proof.KernelValue
import proofs.«157414_j17678085390535_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the projection of every coefficient row in their result array: the kernel's tile by
    tile, the reference's in one contraction, of arguments that agree. -/
theorem algebraic : Cert.algebraic_KernelIdeal_ReferenceIdeal := by
  intro m ρ m' ρ' _ hagree
  refine ⟨fun c => Cert.GridProjection.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
